-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x2048 : S_.BroadcastsInDim S32x2048 (![] : Fin 0 → Fin S32x2048.rank)
  reducesTo_S32x2048_S_d0_1 : S32x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S1x2048 .f32) (main_arg5 : FVec F S8192x2048 .f32) (main_v13 : IVec S_ 1) (main_v16 : IVec S32x2048 1) : IVec S_ 1 :=
  let main_c_5 : IVec S_ 1 := constantI S_ 1 1#1
  let main_v17 : IVec S_ 1 := (fun x v => Host.reduce IntOp.andi x v reducesTo_S32x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S32x8192 .f32) (main_arg1 : FVec F S8192x8192 .f32) (main_arg2 : FVec F S8192x8192 .f32) (main_arg3 : FVec F S32x2048 .f32) (main_arg4 : FVec F S1x2048 .f32) (main_arg5 : FVec F S8192x2048 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S32x2048 .f32 := Host.absf main_arg3
  let main_cst_4 : FVec F S_ .f32 := constant S_ .f32 0x7F800000#32
  let main_v15 : FVec F S32x2048 .f32 := broadcastInDim S32x2048 ![] bcast_S_S32x2048 main_cst_4
  let main_v16 : IVec S32x2048 1 := cmpf .olt main_v14 main_v15
  fn_part1 (F := F) main_arg4 main_arg5 main_v13 main_v16
-- ==== Kernel.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S32x1024 : Shape := ⟨2, ![32, 1024]⟩
abbrev S512x1024 : Shape := ⟨2, ![512, 1024]⟩
abbrev S512x2048 : Shape := ⟨2, ![512, 2048]⟩
abbrev S32x512 : Shape := ⟨2, ![32, 512]⟩

abbrev nBuf : Space → Nat
  | .hbm => 7
  | .vmem => 13
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192x8192, .f32⟩
  | .hbm, ⟨3, _⟩ => ⟨S32x2048, .f32⟩
  | .hbm, ⟨4, _⟩ => ⟨S1x2048, .f32⟩
  | .hbm, ⟨5, _⟩ => ⟨S8192x2048, .f32⟩
  | .hbm, ⟨6, _⟩ => ⟨S32x8192, .f32⟩
  | .local _ .vmem, ⟨0, _⟩ => ⟨S32x1024, .f32⟩
  | .local _ .vmem, ⟨1, _⟩ => ⟨S32x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S32x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  inb_S32x2048_S32x2048_0_0 : ∀ a, (![0, 0] : Fin 2 → Nat) a + S32x2048.size a ≤ S32x2048.size a
  h_S32x2048 : 0 < S32x2048.numel
  broadcasts_S1x2048_S32x2048 : S1x2048.Broadcasts S32x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S512x1024_S512x1024_0_0 : ∀ a, (![0, 0] : Fin 2 → Nat) a + S512x1024.size a ≤ S512x1024.size a
  h_S512x1024 : 0 < S512x1024.numel
  inb_S32x1024_S32x1024_0_0 : ∀ a, (![0, 0] : Fin 2 → Nat) a + S32x1024.size a ≤ S32x1024.size a
  h_S32x1024 : 0 < S32x1024.numel
  dot_S32x2048_S512x2048_S32x512_1_1_0_0_n_n_wf : DotDims.WF S32x2048 S512x2048 S32x512 [1] [1] [0] [0] [] []
  dot_S32x1024_S512x1024_S32x512_1_1_0_0_n_n_wf : DotDims.WF S32x1024 S512x1024 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x8192.size a
  hwx0_0 : ∀ i : grid0.Coords, EltTy.bits .f32 = 32 ∨ (Rect.block (s := S32x8192) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S32x2048.size a
  hwx0_3 : ∀ i : grid0.Coords, EltTy.bits .f32 = 32 ∨ (Rect.block (s := S32x2048) S32x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x8192.size a
  hwx0_6 : ∀ i : grid0.Coords, EltTy.bits .f32 = 32 ∨ (Rect.block (s := S32x8192) S32x512.size (cc0_transform_6 i) (hinb0_6 i)).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf
def dot_S32x1024_S512x1024_S32x512_1_1_0_0_n_n : DotDims S32x1024 S512x1024 S32x512 where
  lhsContracting := [1]
  rhsContracting := [1]
  lhsNonContracting := [0]
  rhsNonContracting := [0]
  lhsBatch := []
  rhsBatch := []
  wf := dot_S32x1024_S512x1024_S32x512_1_1_0_0_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8192 : Shape := ⟨2, ![32, 8192]⟩
abbrev S8192x8192 : Shape := ⟨2, ![8192, 8192]⟩
abbrev S32x2048 : Shape := ⟨2, ![32, 2048]⟩
abbrev S1x2048 : Shape := ⟨2, ![1, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x8192, .f32⟩
  | .hbm, ⟨2, _⟩ => ⟨S8192x8192, .f32⟩
  | .hbm, ⟨3, _⟩ => ⟨S32x2048, .f32⟩
  | .hbm, ⟨4, _⟩ => ⟨S1x2048, .f32⟩
  | .hbm, ⟨5, _⟩ => ⟨S8192x2048, .f32⟩
  | .hbm, ⟨6, _⟩ => ⟨S8192x8192, .f32⟩
  | .hbm, ⟨7, _⟩ => ⟨S8192x8192, .f32⟩
  | .hbm, ⟨8, _⟩ => ⟨S32x8192, .f32⟩
  | .hbm, ⟨9, _⟩ => ⟨S32x2048, .f32⟩
  | .hbm, ⟨10, _⟩ => ⟨S32x2048, .f32⟩
  | .hbm, ⟨11, _⟩ => ⟨S2048x8192, .f32⟩
  | .hbm, ⟨12, _⟩ => ⟨S32x8192, .f32⟩
  | .hbm, ⟨13, _⟩ => ⟨S32x8192, .f32⟩
  | .hbm, ⟨14, _⟩ => ⟨S_, .f32⟩
  | .hbm, ⟨15, _⟩ => ⟨S32x8192, .f32⟩
  | .hbm, ⟨16, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S1x2048_S32x2048_0_1 : S1x2048.BroadcastsInDim S32x2048 (![0, 1] : Fin 2 → Fin S32x2048.rank)
  transposes_S8192x2048_S2048x8192_1_0 : S8192x2048.Transposes [1, 0] S2048x8192
  bcast_S_S32x8192 : S_.BroadcastsInDim S32x8192 (![] : Fin 0 → Fin S32x8192.rank)
  dot_S32x8192_S8192x8192_S32x8192_1_0_0_1_n_n_wf : DotDims.WF S32x8192 S8192x8192 S32x8192 [1] [0] [0] [1] [] []
  dot_S32x2048_S2048x8192_S32x8192_1_0_0_1_n_n_wf : DotDims.WF S32x2048 S2048x8192 S32x8192 [1] [0] [0] [1] [] []

variable [Facts₀]

def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf
def dot_S32x2048_S2048x8192_S32x8192_1_0_0_1_n_n : DotDims S32x2048 S2048x8192 S32x8192 where
  lhsContracting := [1]
  rhsContracting := [0]
  lhsNonContracting := [0]
  rhsNonContracting := [1]
  lhsBatch := []
  rhsBatch := []
  wf := dot_S32x2048_S2048x8192_S32x8192_1_0_0_1_n_n_wf

class Facts : Prop extends Facts₀ where

variable [Facts]
-- ==== Proof.Pieces.lean ====
/-
  What each control case of the kernel body leaves behind, as the body's two stored values (any float instance).

  The accumulator is a 32 × 512 scratch buffer the body keeps from one grid point to the next.
    * At the FIRST block of a row of points the body stores the first value (half the spread term), reads it back,
      and stores the every-block value over it: the accumulator ends at the every-block value of the first value.
    * At a MIDDLE block it stores the every-block value of what the accumulator held.
    * At the LAST block it does the same, and then copies the accumulator into the output block: the output block
      and the accumulator end with the same contents.
  Every load and store covers its whole buffer, so each buffer's final contents is its last store's value.
-/
import proofs.«121542_j33414845562978_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First block of a row: the accumulator ends at the every-block value over the freshly stored first value. -/
theorem acc_first (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S32x512 .f32) (harg8 : arg8.IsWhole) (arg9 : Memref sig .tc .vmem S32x512 .f32) (harg9 : arg9.IsWhole) (hc0 : cond0_0 i) (hc1 : ¬cond0_1 i)
    (x0 : Vec F S32x1024 .f32) (x1 : Vec F S512x1024 .f32) (x2 : Vec F S512x1024 .f32) (x3 : Vec F S32x2048 .f32) (x4 : Vec F S1x2048 .f32) (x5 : Vec F S512x2048 .f32) :
    sout0_A_0 c i arg2 harg2 arg3 harg3 arg4 harg4 arg5 harg5 arg6 harg6 arg7 harg7 arg8 harg8 arg9 harg9 hc0 hc1 x0 x1 x2 x3 x4 x5
      = k0_pay2 x1 x2 x0 (k0_pay1 x4 x3 x5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x512) hz, View.readCov_unit_zero (S := S32x512) _ hz]
  simp only [View.readAt_eq_ld, harg2.read_unread, harg3.read_unread, harg4.read_unread, harg5.read_unread, harg6.read_unread, harg7.read_unread, harg9.read_unread,
    View.ld_unit_zero (S := S512x1024) hz, View.ld_unit_zero (S := S32x1024) hz, View.ld_unit_zero (S := S1x2048) hz, View.ld_unit_zero (S := S32x2048) hz,
    View.ld_unit_zero (S := S512x2048) hz, View.ld_unit_zero (S := S32x512) hz]

/-- Middle block: the accumulator ends at the every-block value over what it held. -/
theorem acc_middle (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : ¬cond0_1 i)
    (x0 : Vec F S32x1024 .f32) (x1 : Vec F S512x1024 .f32) (x2 : Vec F S512x1024 .f32) (x3 : Vec F S32x2048 .f32) (x4 : Vec F S1x2048 .f32) (x5 : Vec F S512x2048 .f32) (xs0 : Vec F S32x512 .f32) :
    sout0_B_0 c i arg2 harg2 arg3 harg3 arg4 harg4 arg5 harg5 arg6 harg6 arg7 harg7 arg8 harg8 arg9 harg9 hc0 hc1 x0 x1 x2 x3 x4 x5 xs0
      = k0_pay2 x1 x2 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S512x1024) hz, View.ld_unit_zero (S := S32x1024) hz, View.ld_unit_zero (S := S1x2048) hz, View.ld_unit_zero (S := S32x2048) hz,
    View.ld_unit_zero (S := S512x2048) hz, View.ld_unit_zero (S := S32x512) hz]

/-- Last block: the accumulator ends at the every-block value over what it held, -/
theorem acc_last (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : cond0_1 i)
    (x0 : Vec F S32x1024 .f32) (x1 : Vec F S512x1024 .f32) (x2 : Vec F S512x1024 .f32) (x3 : Vec F S32x2048 .f32) (x4 : Vec F S1x2048 .f32) (x5 : Vec F S512x2048 .f32) (xs0 : Vec F S32x512 .f32) :
    sout0_C_0 c i arg2 harg2 arg3 harg3 arg4 harg4 arg5 harg5 arg6 harg6 arg7 harg7 arg8 harg8 arg9 harg9 hc0 hc1 x0 x1 x2 x3 x4 x5 xs0
      = k0_pay2 x1 x2 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread,
    View.ld_unit_zero (S := S512x1024) hz, View.ld_unit_zero (S := S32x1024) hz, View.ld_unit_zero (S := S1x2048) hz, View.ld_unit_zero (S := S32x2048) hz,
    View.ld_unit_zero (S := S512x2048) hz, View.ld_unit_zero (S := S32x512) hz]

/-- and the output block, a copy of the accumulator read back, ends at the same value. -/
theorem out_last (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S32x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : cond0_1 i)
    (x0 : Vec F S32x1024 .f32) (x1 : Vec F S512x1024 .f32) (x2 : Vec F S512x1024 .f32) (x3 : Vec F S32x2048 .f32) (x4 : Vec F S1x2048 .f32) (x5 : Vec F S512x2048 .f32) (xs0 : Vec F S32x512 .f32) :
    out0_C_6 c i arg2 harg2 arg3 harg3 arg4 harg4 arg5 harg5 arg6 harg6 arg7 harg7 arg8 harg8 arg9 harg9 hc0 hc1 x0 x1 x2 x3 x4 x5 xs0
      = k0_pay2 x1 x2 x0 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S32x512) _ hz]
  simp only [View.readAt_eq_ld, harg2.read_unread, harg3.read_unread, harg4.read_unread, harg5.read_unread, harg6.read_unread, harg7.read_unread, harg9.read_unread,
    View.ld_unit_zero (S := S512x1024) hz, View.ld_unit_zero (S := S32x1024) hz, View.ld_unit_zero (S := S1x2048) hz, View.ld_unit_zero (S := S32x2048) hz,
    View.ld_unit_zero (S := S512x2048) hz, View.ld_unit_zero (S := S32x512) hz]

end Cert.KernelIdeal.Pieces

end
-- ==== Proof.HalfSum.lean ====
/-
  The arithmetic that joins the two programs, over the extended reals and with no program in sight.

  The kernel keeps, for one output entry, a running value: at the first of the eight column blocks it is
  half the bias term plus half that block's partial dot product, and every later block adds half of its own
  partial dot product.  The reference adds the bias term to the WHOLE dot product over all 8192 columns and
  halves once.  The two agree because a nonnegative FINITE factor distributes over sums of extended reals
  (no infinity can be produced by the factor, and `⊤ + ⊥` is absorbed the same way on both sides), and because
  the sum over 8192 columns is the sum, block by block, of eight sums over 1024 columns.
-/
import Idealize.ShloMosaic.PureOps.Ideal
import Mathlib.Data.EReal.Operations
import Mathlib.Algebra.BigOperators.Fin
import Mathlib.Logic.Equiv.Fin.Basic

noncomputable section

namespace Cert.HalfSum

open Idealize.ShloMosaic

/-- The pattern `0x3F000000` denotes the real number one half. -/
theorem ofBits_half : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [ofBits_half]; exact_mod_cast (by norm_num : (0 : ℝ) ≤ 1 / 2)

theorem half_ne_top : Ideal.ofBits .f32 0x3F000000#32 ≠ ⊤ := by
  rw [ofBits_half]; exact EReal.coe_ne_top _

/-- A nonnegative finite factor goes through a finite sum of extended reals. -/
theorem mul_sum {ι : Type*} (h : EReal) (h0 : 0 ≤ h) (ht : h ≠ ⊤) (s : Finset ι) (f : ι → EReal) :
    h * ∑ i ∈ s, f i = ∑ i ∈ s, h * f i := by
  classical
  induction s using Finset.induction_on with
  | empty => simp
  | insert a s ha ih =>
    rw [Finset.sum_insert ha, Finset.sum_insert ha, EReal.left_distrib_of_nonneg_of_ne_top h0 ht, ih]

/-- Column `j` of block `s` is column `s * 1024 + j` of the whole row. -/
def col (s : Fin 8) (j : Fin 1024) : Fin 8192 :=
  ⟨s.val * 1024 + j.val, by have := s.isLt; have := j.isLt; omega⟩

/-- A sum over the 8192 columns is the sum over the eight blocks of the sums over each block's 1024 columns. -/
theorem sum_blocks (f : Fin 8192 → EReal) :
    ∑ j, f j = ∑ s : Fin 8, ∑ j : Fin 1024, f (col s j) := by
  rw [← Fintype.sum_prod_type' (f := fun (s : Fin 8) (j : Fin 1024) => f (col s j))]
  refine (Fintype.sum_equiv (finProdFinEquiv (m := 8) (n := 1024)) _ _ (fun p => ?_)).symm
  refine congrArg f (Fin.ext ?_)
  show p.1.val * 1024 + p.2.val = p.2.val + 1024 * p.1.val
  omega

/-- Half the bias plus, block by block, half of each block's partial sum, is half of the bias plus the whole sum. -/
theorem half_blocks (h A : EReal) (h0 : 0 ≤ h) (ht : h ≠ ⊤) (f : Fin 8192 → EReal) :
    h * A + ∑ s : Fin 8, h * ∑ j : Fin 1024, f (col s j) = h * (A + ∑ j, f j) := by
  rw [EReal.left_distrib_of_nonneg_of_ne_top h0 ht, sum_blocks, mul_sum h h0 ht]

end Cert.HalfSum

end
-- ==== Proof.Spec.lean ====
/-
  What both programs compute, as ONE function of the six argument arrays.

  For batch row `p` and edge `e` the updated message is one half of the sum of two terms:
    * the SPREAD log-likelihood term: the sum over the 2048 variable nodes `v` of
      `(w[0, v] · llr[p, v]) · ex[e, v]` (the weighted ratios of the row, carried to edge `e` by row `e` of the
      expander);
    * the GATHERED term: the sum over the 8192 edges `j` of `inp[p, j] · (mask[e, j] · wt[e, j])` (the incoming
      messages through the masked weights of edge `e`).
  The reference computes exactly this.  The kernel computes, for the same entry, half the spread term plus, for each of
  the eight blocks of 1024 edges, half of that block's share of the gathered term; `update_blocks` says the two agree.
-/
import Idealize.ShloMosaic.Lib.ValueIdx
import proofs.«121542_j33414845562978_1_alg».proof.Proof.HalfSum

noncomputable section

namespace Cert.HalfSum

open Idealize.ShloMosaic Idealize.ShloMosaic.ValueIdx

/-- An `r × c` array of extended reals. -/
abbrev Mat (r c : Nat) : Type := (⟨2, ![r, c]⟩ : Shape).Idx → EReal

/-- The one-half both programs multiply by. -/
abbrev half : EReal := Ideal.ofBits .f32 0x3F000000#32

/-- The spread log-likelihood term of batch row `p` at edge `e`. -/
def spread (llr : Mat 32 2048) (w : Mat 1 2048) (ex : Mat 8192 2048) (p : Fin 32) (e : Fin 8192) : EReal :=
  ∑ v : Fin 2048, (w (ix2 0 v) * llr (ix2 p v)) * ex (ix2 e v)

/-- One incoming message through edge `e`'s masked weight. -/
def through (inp : Mat 32 8192) (wt mask : Mat 8192 8192) (p : Fin 32) (e : Fin 8192) (j : Fin 8192) : EReal :=
  inp (ix2 p j) * (mask (ix2 e j) * wt (ix2 e j))

/-- The updated messages: half of (spread + gathered), entry by entry. -/
def update (inp : Mat 32 8192) (wt mask : Mat 8192 8192) (llr : Mat 32 2048) (w : Mat 1 2048) (ex : Mat 8192 2048) :
    Mat 32 8192 := fun i =>
  half * (spread llr w ex (i 0) (i 1) + ∑ j : Fin 8192, through inp wt mask (i 0) (i 1) j)

/-- The same entry in the kernel's arrangement: half the spread term, then half of each block's gathered share. -/
theorem update_blocks (inp : Mat 32 8192) (wt mask : Mat 8192 8192) (llr : Mat 32 2048) (w : Mat 1 2048)
    (ex : Mat 8192 2048) (p : Fin 32) (e : Fin 8192) :
    half * spread llr w ex p e + ∑ s : Fin 8, half * ∑ j : Fin 1024, through inp wt mask p e (col s j)
      = update inp wt mask llr w ex (ix2 p e) :=
  half_blocks half (spread llr w ex p e) half_nonneg half_ne_top (through inp wt mask p e)

end Cert.HalfSum

end
-- ==== Proof.Entry.lean ====
/-
  The kernel body's two stored values, read at one entry `(p, q)` of the 32 × 512 accumulator, at the ideal values.

  * The value the body stores at the first block of a row of points: one half of the spread log-likelihood term —
    the sum over the 2048 variable nodes `v` of `(w[0, v] · llr[p, v]) · ex[q, v]`, where `ex` is the 512-row block
    of the expander.  (The weight row is broadcast over the 32 batch rows; the conversions to bf16 are the identity
    on the ideal values; the matrix product into a zero accumulator is the plain sum.)
  * The value it stores at every block: what the accumulator held, plus one half of the block's share of the
    gathered term — the sum over the block's 1024 columns `j` of `inp[p, j] · (mask[q, j] · wt[q, j])`.
  Both matrix products contract the SECOND axis of both operands, so the right operand is read at `(q, k)`.
-/
import proofs.«121542_j33414845562978_1_alg».proof.Proof.Gen.KernelIdeal.Skeleton
import proofs.«121542_j33414845562978_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx
open Cert.HalfSum (half)

/-! ## The product over the 2048 variable nodes -/

theorem lhs_spread_0 (i : S32x512.Idx) (k : dot_S32x2048_S512x2048_S32x512_1_1_0_0_n_n.contr.Idx) :
    (dot_S32x2048_S512x2048_S32x512_1_1_0_0_n_n.lhsIdx i k 0).val = (i 0).val := by
  unfold DotDims.lhsIdx
  rw [dif_neg (show ¬(0 : Fin S32x2048.rank) ∈ dot_S32x2048_S512x2048_S32x512_1_1_0_0_n_n.lhsBatch by decide), dif_pos (show (0 : Fin S32x2048.rank) ∈ dot_S32x2048_S512x2048_S32x512_1_1_0_0_n_n.lhsNonContracting by decide)]
  rfl
theorem lhs_spread_1 (i : S32x512.Idx) (k : dot_S32x2048_S512x2048_S32x512_1_1_0_0_n_n.contr.Idx) :
    (dot_S32x2048_S512x2048_S32x512_1_1_0_0_n_n.lhsIdx i k 1).val = (k ⟨0, by decide⟩).val :=
  dot_S32x2048_S512x2048_S32x512_1_1_0_0_n_n.lhsIdx_val_of_single rfl i k
theorem rhs_spread_0 (i : S32x512.Idx) (k : dot_S32x2048_S512x2048_S32x512_1_1_0_0_n_n.contr.Idx) :
    (dot_S32x2048_S512x2048_S32x512_1_1_0_0_n_n.rhsIdx i k 0).val = (i 1).val := by
  unfold DotDims.rhsIdx
  rw [dif_neg (show ¬(0 : Fin S512x2048.rank) ∈ dot_S32x2048_S512x2048_S32x512_1_1_0_0_n_n.rhsBatch by decide), dif_pos (show (0 : Fin S512x2048.rank) ∈ dot_S32x2048_S512x2048_S32x512_1_1_0_0_n_n.rhsNonContracting by decide)]
  rfl
theorem rhs_spread_1 (i : S32x512.Idx) (k : dot_S32x2048_S512x2048_S32x512_1_1_0_0_n_n.contr.Idx) :
    (dot_S32x2048_S512x2048_S32x512_1_1_0_0_n_n.rhsIdx i k 1).val = (k ⟨0, by decide⟩).val :=
  dot_S32x2048_S512x2048_S32x512_1_1_0_0_n_n.rhsIdx_val_of_single rfl i k

/-- Into a zero accumulator, the product over the variable nodes at `(p, q)` is the sum of `l[p, v] · r[q, v]`. -/
theorem spread_matmul_apply (l : FVec Ideal S32x2048 .bf16) (r : FVec Ideal S512x2048 .bf16) (p : Fin 32) (q : Fin 512) :
    matmul dot_S32x2048_S512x2048_S32x512_1_1_0_0_n_n none l r (constant S32x512 .f32 0x00000000#32) (ix2 p q)
      = ∑ v : Fin 2048, l (ix2 p v) * r (ix2 q v) := by
  simp only [matmul]
  rw [Ideal.matmul_constant_zero_apply, ← Equiv.sum_comp (contrEquiv1 dot_S32x2048_S512x2048_S32x512_1_1_0_0_n_n 2048 rfl rfl).symm]
  refine Finset.sum_congr rfl fun v _ => ?_
  have hv := contrEquiv1_symm_val dot_S32x2048_S512x2048_S32x512_1_1_0_0_n_n 2048 rfl rfl v
  have el : dot_S32x2048_S512x2048_S32x512_1_1_0_0_n_n.lhsIdx (ix2 p q) ((contrEquiv1 dot_S32x2048_S512x2048_S32x512_1_1_0_0_n_n 2048 rfl rfl).symm v) = ix2 p v := funext fun a => Fin.ext (by
    match a with
    | ⟨0, _⟩ => exact lhs_spread_0 _ _
    | ⟨1, _⟩ => exact (lhs_spread_1 _ _).trans hv)
  have er : dot_S32x2048_S512x2048_S32x512_1_1_0_0_n_n.rhsIdx (ix2 p q) ((contrEquiv1 dot_S32x2048_S512x2048_S32x512_1_1_0_0_n_n 2048 rfl rfl).symm v) = ix2 q v := funext fun a => Fin.ext (by
    match a with
    | ⟨0, _⟩ => exact rhs_spread_0 _ _
    | ⟨1, _⟩ => exact (rhs_spread_1 _ _).trans hv)
  rw [el, er]

/-! ## The product over one block's 1024 columns -/

theorem lhs_block_0 (i : S32x512.Idx) (k : dot_S32x1024_S512x1024_S32x512_1_1_0_0_n_n.contr.Idx) :
    (dot_S32x1024_S512x1024_S32x512_1_1_0_0_n_n.lhsIdx i k 0).val = (i 0).val := by
  unfold DotDims.lhsIdx
  rw [dif_neg (show ¬(0 : Fin S32x1024.rank) ∈ dot_S32x1024_S512x1024_S32x512_1_1_0_0_n_n.lhsBatch by decide), dif_pos (show (0 : Fin S32x1024.rank) ∈ dot_S32x1024_S512x1024_S32x512_1_1_0_0_n_n.lhsNonContracting by decide)]
  rfl
theorem lhs_block_1 (i : S32x512.Idx) (k : dot_S32x1024_S512x1024_S32x512_1_1_0_0_n_n.contr.Idx) :
    (dot_S32x1024_S512x1024_S32x512_1_1_0_0_n_n.lhsIdx i k 1).val = (k ⟨0, by decide⟩).val :=
  dot_S32x1024_S512x1024_S32x512_1_1_0_0_n_n.lhsIdx_val_of_single rfl i k
theorem rhs_block_0 (i : S32x512.Idx) (k : dot_S32x1024_S512x1024_S32x512_1_1_0_0_n_n.contr.Idx) :
    (dot_S32x1024_S512x1024_S32x512_1_1_0_0_n_n.rhsIdx i k 0).val = (i 1).val := by
  unfold DotDims.rhsIdx
  rw [dif_neg (show ¬(0 : Fin S512x1024.rank) ∈ dot_S32x1024_S512x1024_S32x512_1_1_0_0_n_n.rhsBatch by decide), dif_pos (show (0 : Fin S512x1024.rank) ∈ dot_S32x1024_S512x1024_S32x512_1_1_0_0_n_n.rhsNonContracting by decide)]
  rfl
theorem rhs_block_1 (i : S32x512.Idx) (k : dot_S32x1024_S512x1024_S32x512_1_1_0_0_n_n.contr.Idx) :
    (dot_S32x1024_S512x1024_S32x512_1_1_0_0_n_n.rhsIdx i k 1).val = (k ⟨0, by decide⟩).val :=
  dot_S32x1024_S512x1024_S32x512_1_1_0_0_n_n.rhsIdx_val_of_single rfl i k

/-- Into a zero accumulator, the product over a block's columns at `(p, q)` is the sum of `l[p, j] · r[q, j]`. -/
theorem block_matmul_apply (l : FVec Ideal S32x1024 .bf16) (r : FVec Ideal S512x1024 .bf16) (p : Fin 32) (q : Fin 512) :
    matmul dot_S32x1024_S512x1024_S32x512_1_1_0_0_n_n none l r (constant S32x512 .f32 0x00000000#32) (ix2 p q)
      = ∑ j : Fin 1024, l (ix2 p j) * r (ix2 q j) := by
  simp only [matmul]
  rw [Ideal.matmul_constant_zero_apply, ← Equiv.sum_comp (contrEquiv1 dot_S32x1024_S512x1024_S32x512_1_1_0_0_n_n 1024 rfl rfl).symm]
  refine Finset.sum_congr rfl fun j _ => ?_
  have hj := contrEquiv1_symm_val dot_S32x1024_S512x1024_S32x512_1_1_0_0_n_n 1024 rfl rfl j
  have el : dot_S32x1024_S512x1024_S32x512_1_1_0_0_n_n.lhsIdx (ix2 p q) ((contrEquiv1 dot_S32x1024_S512x1024_S32x512_1_1_0_0_n_n 1024 rfl rfl).symm j) = ix2 p j := funext fun a => Fin.ext (by
    match a with
    | ⟨0, _⟩ => exact lhs_block_0 _ _
    | ⟨1, _⟩ => exact (lhs_block_1 _ _).trans hj)
  have er : dot_S32x1024_S512x1024_S32x512_1_1_0_0_n_n.rhsIdx (ix2 p q) ((contrEquiv1 dot_S32x1024_S512x1024_S32x512_1_1_0_0_n_n 1024 rfl rfl).symm j) = ix2 q j := funext fun a => Fin.ext (by
    match a with
    | ⟨0, _⟩ => exact rhs_block_0 _ _
    | ⟨1, _⟩ => exact (rhs_block_1 _ _).trans hj)
  rw [el, er]

/-! ## The two stored values at an entry -/

/-- The value stored at the first block of a row of points: half the spread term over the loaded blocks. -/
theorem first_store_apply (w : Vec Ideal S1x2048 .f32) (llr : Vec Ideal S32x2048 .f32) (ex : Vec Ideal S512x2048 .f32)
    (p : Fin 32) (q : Fin 512) :
    k0_pay1 w llr ex (ix2 p q) = half * ∑ v : Fin 2048, (w (ix2 0 v) * llr (ix2 p v)) * ex (ix2 q v) := by
  unfold k0_pay1
  rw [shapeCast_self]
  show half * matmul (F := Ideal) dot_S32x2048_S512x2048_S32x512_1_1_0_0_n_n none _ _ (constant (F := Ideal) S32x512 .f32 0x00000000#32) (ix2 p q) = _
  rw [spread_matmul_apply]
  refine congrArg (half * ·) (Finset.sum_congr rfl fun v _ => ?_)
  show (broadcastTo S32x2048 w broadcasts_S1x2048_S32x2048 (ix2 p v) * llr (ix2 p v)) * ex (ix2 q v) = _
  rw [broadcastTo_1b_ab_apply]

/-- The value stored at every block: the accumulator plus half the block's share of the gathered term. -/
theorem every_store_apply (mask wt : Vec Ideal S512x1024 .f32) (inp : Vec Ideal S32x1024 .f32) (acc : Vec Ideal S32x512 .f32)
    (p : Fin 32) (q : Fin 512) :
    k0_pay2 mask wt inp acc (ix2 p q)
      = acc (ix2 p q) + half * ∑ j : Fin 1024, inp (ix2 p j) * (mask (ix2 q j) * wt (ix2 q j)) := by
  unfold k0_pay2
  rw [shapeCast_self]
  show acc (ix2 p q) + half * matmul (F := Ideal) dot_S32x1024_S512x1024_S32x512_1_1_0_0_n_n none _ _ (constant (F := Ideal) S32x512 .f32 0x00000000#32) (ix2 p q) = _
  rw [block_matmul_apply]
  rfl

end Cert.KernelIdeal.Entry

end
-- ==== Proof.Blocks.lean ====
/-
  Where each window's block sits in its array.

  The grid has 16 × 8 points; point `t` is block row `t / 8` of the output's 16 column blocks and reduction block
  `t % 8` of the eight blocks of 1024 edges.  At point `t`:
    * the incoming messages' block is columns `(t % 8) · 1024 …` of all 32 rows;
    * the mask's and the weights' blocks are rows `(t / 8) · 512 …`, columns `(t % 8) · 1024 …`;
    * the ratios and the weight row are whole;
    * the expander's block is rows `(t / 8) · 512 …`, all columns;
    * the output's block is columns `(t / 8) · 512 …` of all 32 rows.
  So an entry of a block is the entry of the array at the block's offset plus the entry's position in the block.
-/
import proofs.«121542_j33414845562978_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps at point `t`, decided once over the 128 points. -/
theorem index_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0
    ∧ win0_6.index t (0 : Fin 2) = 0 ∧ win0_6.index t (1 : Fin 2) = t.val / 8 :=
  (by decide +kernel : ∀ t : Fin grid0.N, _)

/-- The incoming messages' block: row `p`, column `j` of the block is column `(t % 8) · 1024 + j` of the array. -/
theorem messages_at (c : Dev nD) (t : Fin cfg0.N) (p : Fin 32) (j : Fin 1024) (J : Fin 8192)
    (hJ : J.val = t.val % 8 * 1024 + j.val) :
    (iblk m c 0 t : Vec F S32x1024 .f32) (ix2 p j) = V m c main_arg0 (ix2 p J) := by
  obtain ⟨e0, e1, -⟩ := index_facts t
  unfold iblk
  rw [View.read_apply]
  show V m c main_arg0 _ = V m c main_arg0 _
  congr 1
  funext a
  apply Fin.ext
  match a with
  | ⟨0, _⟩ => show win0_0.index t 0 * 32 + 1 * p.val = p.val; rw [e0]; omega
  | ⟨1, _⟩ => show win0_0.index t 1 * 1024 + 1 * j.val = J.val; rw [e1, hJ]; omega

/-- The mask's block: row `q`, column `j` of the block is row `(t / 8) · 512 + q`, column `(t % 8) · 1024 + j`. -/
theorem mask_at (c : Dev nD) (t : Fin cfg0.N) (q : Fin 512) (j : Fin 1024) (E : Fin 8192) (J : Fin 8192)
    (hE : E.val = t.val / 8 * 512 + q.val) (hJ : J.val = t.val % 8 * 1024 + j.val) :
    (iblk m c 1 t : Vec F S512x1024 .f32) (ix2 q j) = V m c main_arg2 (ix2 E J) := by
  obtain ⟨-, -, e0, e1, -⟩ := index_facts t
  unfold iblk
  rw [View.read_apply]
  show V m c main_arg2 _ = V m c main_arg2 _
  congr 1
  funext a
  apply Fin.ext
  match a with
  | ⟨0, _⟩ => show win0_1.index t 0 * 512 + 1 * q.val = E.val; rw [e0, hE]; omega
  | ⟨1, _⟩ => show win0_1.index t 1 * 1024 + 1 * j.val = J.val; rw [e1, hJ]; omega

/-- The weights' block sits where the mask's does. -/
theorem weights_at (c : Dev nD) (t : Fin cfg0.N) (q : Fin 512) (j : Fin 1024) (E : Fin 8192) (J : Fin 8192)
    (hE : E.val = t.val / 8 * 512 + q.val) (hJ : J.val = t.val % 8 * 1024 + j.val) :
    (iblk m c 2 t : Vec F S512x1024 .f32) (ix2 q j) = V m c main_arg1 (ix2 E J) := by
  obtain ⟨-, -, -, -, e0, e1, -⟩ := index_facts t
  unfold iblk
  rw [View.read_apply]
  show V m c main_arg1 _ = V m c main_arg1 _
  congr 1
  funext a
  apply Fin.ext
  match a with
  | ⟨0, _⟩ => show win0_2.index t 0 * 512 + 1 * q.val = E.val; rw [e0, hE]; omega
  | ⟨1, _⟩ => show win0_2.index t 1 * 1024 + 1 * j.val = J.val; rw [e1, hJ]; omega

/-- The ratios' block is the whole array. -/
theorem ratios_at (c : Dev nD) (t : Fin cfg0.N) (p : Fin 32) (v : Fin 2048) :
    (iblk m c 3 t : Vec F S32x2048 .f32) (ix2 p v) = V m c main_arg3 (ix2 p v) := by
  obtain ⟨-, -, -, -, -, -, e0, e1, -⟩ := index_facts t
  unfold iblk
  rw [View.read_apply]
  show V m c main_arg3 _ = V m c main_arg3 _
  congr 1
  funext a
  apply Fin.ext
  match a with
  | ⟨0, _⟩ => show win0_3.index t 0 * 32 + 1 * p.val = p.val; rw [e0]; omega
  | ⟨1, _⟩ => show win0_3.index t 1 * 2048 + 1 * v.val = v.val; rw [e1]; omega

/-- The weight row's block is the whole row. -/
theorem weightrow_at (c : Dev nD) (t : Fin cfg0.N) (z : Fin 1) (v : Fin 2048) :
    (iblk m c 4 t : Vec F S1x2048 .f32) (ix2 z v) = V m c main_arg4 (ix2 z v) := by
  obtain ⟨-, -, -, -, -, -, -, -, e0, e1, -⟩ := index_facts t
  unfold iblk
  rw [View.read_apply]
  show V m c main_arg4 _ = V m c main_arg4 _
  congr 1
  funext a
  apply Fin.ext
  match a with
  | ⟨0, _⟩ => show win0_4.index t 0 * 1 + 1 * z.val = z.val; rw [e0]; omega
  | ⟨1, _⟩ => show win0_4.index t 1 * 2048 + 1 * v.val = v.val; rw [e1]; omega

/-- The expander's block: row `q` of the block is row `(t / 8) · 512 + q` of the array. -/
theorem expander_at (c : Dev nD) (t : Fin cfg0.N) (q : Fin 512) (v : Fin 2048) (E : Fin 8192)
    (hE : E.val = t.val / 8 * 512 + q.val) :
    (iblk m c 5 t : Vec F S512x2048 .f32) (ix2 q v) = V m c main_arg5 (ix2 E v) := by
  obtain ⟨-, -, -, -, -, -, -, -, -, -, e0, e1, -⟩ := index_facts t
  unfold iblk
  rw [View.read_apply]
  show V m c main_arg5 _ = V m c main_arg5 _
  congr 1
  funext a
  apply Fin.ext
  match a with
  | ⟨0, _⟩ => show win0_5.index t 0 * 512 + 1 * q.val = E.val; rw [e0, hE]; omega
  | ⟨1, _⟩ => show win0_5.index t 1 * 2048 + 1 * v.val = v.val; rw [e1]; omega

end Cert.KernelIdeal.Blocks

end
-- ==== Proof.Fold.lean ====
/-
  The accumulator over a row of eight grid points, and the entry it ends with.

  Points `8r, 8r + 1, …, 8r + 7` work on output column block `r`.  The accumulator is reset at `8r` to half the
  spread term plus half of block 0's share of the gathered term, and each later point `8r + s` adds half of block
  `s`'s share.  After the eighth point it holds half the spread term plus the eight half-shares; by the arithmetic
  of the specification that is the updated message, and the eighth point copies it to the output block.
-/
import proofs.«121542_j33414845562978_1_alg».proof.Proof.Gen.KernelIdeal.Value
import proofs.«121542_j33414845562978_1_alg».proof.Proof.Pieces
import proofs.«121542_j33414845562978_1_alg».proof.Proof.Entry
import proofs.«121542_j33414845562978_1_alg».proof.Proof.Blocks
import proofs.«121542_j33414845562978_1_alg».proof.Proof.Spec

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx
open Cert.HalfSum (half update spread through col update_blocks)

variable (m : (ℓ : Loc nD τ sig) → Buf (Elt Ideal) ℓ)

/-! ## The blocks a point works on, at their literal types -/

abbrev msgBlk (c : Dev nD) (t : Fin cfg0.N) : Vec Ideal S32x1024 .f32 := iblk m c 0 t
abbrev maskBlk (c : Dev nD) (t : Fin cfg0.N) : Vec Ideal S512x1024 .f32 := iblk m c 1 t
abbrev wtBlk (c : Dev nD) (t : Fin cfg0.N) : Vec Ideal S512x1024 .f32 := iblk m c 2 t
abbrev ratioBlk (c : Dev nD) (t : Fin cfg0.N) : Vec Ideal S32x2048 .f32 := iblk m c 3 t
abbrev rowBlk (c : Dev nD) (t : Fin cfg0.N) : Vec Ideal S1x2048 .f32 := iblk m c 4 t
abbrev exBlk (c : Dev nD) (t : Fin cfg0.N) : Vec Ideal S512x2048 .f32 := iblk m c 5 t

/-- The argument arrays as the region finds them, at their literal types. -/
abbrev msgArr (c : Dev nD) : Cert.HalfSum.Mat 32 8192 := V m c main_arg0
abbrev wtArr (c : Dev nD) : Cert.HalfSum.Mat 8192 8192 := V m c main_arg1
abbrev maskArr (c : Dev nD) : Cert.HalfSum.Mat 8192 8192 := V m c main_arg2
abbrev ratioArr (c : Dev nD) : Cert.HalfSum.Mat 32 2048 := V m c main_arg3
abbrev rowArr (c : Dev nD) : Cert.HalfSum.Mat 1 2048 := V m c main_arg4
abbrev exArr (c : Dev nD) : Cert.HalfSum.Mat 8192 2048 := V m c main_arg5

theorem msg_at (c : Dev nD) (t : Fin cfg0.N) (p : Fin 32) (j : Fin 1024) (J : Fin 8192) (hJ : J.val = t.val % 8 * 1024 + j.val) :
    msgBlk m c t (ix2 p j) = msgArr m c (ix2 p J) := Blocks.messages_at m c t p j J hJ
theorem mask_at (c : Dev nD) (t : Fin cfg0.N) (q : Fin 512) (j : Fin 1024) (E J : Fin 8192)
    (hE : E.val = t.val / 8 * 512 + q.val) (hJ : J.val = t.val % 8 * 1024 + j.val) :
    maskBlk m c t (ix2 q j) = maskArr m c (ix2 E J) := Blocks.mask_at m c t q j E J hE hJ
theorem wt_at (c : Dev nD) (t : Fin cfg0.N) (q : Fin 512) (j : Fin 1024) (E J : Fin 8192)
    (hE : E.val = t.val / 8 * 512 + q.val) (hJ : J.val = t.val % 8 * 1024 + j.val) :
    wtBlk m c t (ix2 q j) = wtArr m c (ix2 E J) := Blocks.weights_at m c t q j E J hE hJ
theorem ratio_at (c : Dev nD) (t : Fin cfg0.N) (p : Fin 32) (v : Fin 2048) :
    ratioBlk m c t (ix2 p v) = ratioArr m c (ix2 p v) := Blocks.ratios_at m c t p v
theorem row_at (c : Dev nD) (t : Fin cfg0.N) (z : Fin 1) (v : Fin 2048) :
    rowBlk m c t (ix2 z v) = rowArr m c (ix2 z v) := Blocks.weightrow_at m c t z v
theorem ex_at (c : Dev nD) (t : Fin cfg0.N) (q : Fin 512) (v : Fin 2048) (E : Fin 8192) (hE : E.val = t.val / 8 * 512 + q.val) :
    exBlk m c t (ix2 q v) = exArr m c (ix2 E v) := Blocks.expander_at m c t q v E hE

/-! ## One point's step on the accumulator -/

/-- At the first point of a row the accumulator is reset: whatever it held does not enter. -/
theorem step_first (c : Dev nD) (n : ℕ) (hb : n < cfg0.N) (h0 : n % 8 = 0) (acc : Vec Ideal S32x512 .f32) :
    scAt0_0 m c n hb acc
      = k0_pay2 (maskBlk m c (⟨n, hb⟩ : Fin cfg0.N)) (wtBlk m c (⟨n, hb⟩ : Fin cfg0.N)) (msgBlk m c (⟨n, hb⟩ : Fin cfg0.N))
          (k0_pay1 (rowBlk m c (⟨n, hb⟩ : Fin cfg0.N)) (ratioBlk m c (⟨n, hb⟩ : Fin cfg0.N)) (exBlk m c (⟨n, hb⟩ : Fin cfg0.N))) := by
  unfold scAt0_0
  rw [dif_pos h0, dif_neg (by omega)]
  exact Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))

/-- At every other point it adds to what it held. -/
theorem step_later (c : Dev nD) (n : ℕ) (hb : n < cfg0.N) (h0 : ¬n % 8 = 0) (acc : Vec Ideal S32x512 .f32) :
    scAt0_0 m c n hb acc = k0_pay2 (maskBlk m c (⟨n, hb⟩ : Fin cfg0.N)) (wtBlk m c (⟨n, hb⟩ : Fin cfg0.N)) (msgBlk m c (⟨n, hb⟩ : Fin cfg0.N)) acc := by
  unfold scAt0_0
  rw [dif_neg h0]
  by_cases h1 : n % 8 = 7
  · rw [dif_pos h1]
    exact Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
  · rw [dif_neg h1]
    exact Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-! ## The fold over a row of points -/

/-- Half of point `n`'s share of the gathered term, at accumulator entry `(p, q)` (zero past the grid). -/
def share (c : Dev nD) (n : ℕ) (p : Fin 32) (q : Fin 512) : EReal :=
  if h : n < cfg0.N then
    half * ∑ j : Fin 1024, msgBlk m c ⟨n, h⟩ (ix2 p j) * (maskBlk m c ⟨n, h⟩ (ix2 q j) * wtBlk m c ⟨n, h⟩ (ix2 q j))
  else 0

/-- Half the spread term as the first point of the row stores it, at accumulator entry `(p, q)`. -/
def bias (c : Dev nD) (t : Fin cfg0.N) (p : Fin 32) (q : Fin 512) : EReal :=
  k0_pay1 (rowBlk m c t) (ratioBlk m c t) (exBlk m c t) (ix2 p q)

/-- After point `t` the accumulator holds the row's bias plus the shares of the row's points up to `t`. -/
theorem acc_after (c : Dev nD) (t : Fin cfg0.N) (p : Fin 32) (q : Fin 512) :
    (outsAt0 m c t.val t.isLt).2 (ix2 p q)
      = bias m c ⟨8 * (t.val / 8), by have := t.isLt; omega⟩ p q
        + ∑ s ∈ Finset.range (t.val % 8 + 1), share m c (8 * (t.val / 8) + s) p q := by
  have hb : 8 * (t.val / 8) < cfg0.N := by have := t.isLt; omega
  rw [soutsAt0_0_eq m c t]
  refine Pipeline.accAt_add_apply (fun n h => scAt0_0 m c n h (VS0_0.read (Elt Ideal) VS0_0.junk)) (scAt0_0 m c)
    (fun i => bias m c ⟨8 * (t.val / 8), hb⟩ (i 0) (i 1)) (fun n i => share m c n (i 0) (i 1)) (8 * (t.val / 8)) 7
    (fun h i => ?_) (fun n h acc i hlt hle => ?_) (t.val % 8) (by omega) _ (ix2 p q)
  · obtain ⟨p', q', rfl⟩ : ∃ (p' : Fin 32) (q' : Fin 512), i = ix2 p' q' := ⟨i 0, i 1, eq_ix2 i⟩
    show scAt0_0 m c (8 * (t.val / 8)) h (VS0_0.read (Elt Ideal) VS0_0.junk) (ix2 p' q') = bias m c ⟨8 * (t.val / 8), hb⟩ p' q' + share m c (8 * (t.val / 8)) p' q'
    rw [step_first m c _ h (Nat.mul_mod_right 8 _), Entry.every_store_apply]
    unfold share bias
    rw [dif_pos h]
  · obtain ⟨p', q', rfl⟩ : ∃ (p' : Fin 32) (q' : Fin 512), i = ix2 p' q' := ⟨i 0, i 1, eq_ix2 i⟩
    show scAt0_0 m c n h acc (ix2 p' q') = acc (ix2 p' q') + share m c n p' q'
    rw [step_later m c n h (by omega) acc, Entry.every_store_apply]
    unfold share
    rw [dif_pos h]

/-! ## The row's last point -/

/-- The output block at a row's last point is a copy of the accumulator. -/
theorem out_eq_acc (c : Dev nD) (t : Fin cfg0.N) (h7 : t.val % 8 = 7) :
    (outsAt0 m c t.val t.isLt).1 = (outsAt0 m c t.val t.isLt).2 := by
  rw [outsAt0_C m c t (by omega) h7]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) (outsAt0 m c (t.val - 1) (Nat.lt_of_le_of_lt (Nat.sub_le _ _) t.isLt)).2).symm

/-- At the last point of row `t / 8` the accumulator's entry `(p, q)` is the updated message of batch row `p` at
    edge `(t / 8) · 512 + q`. -/
theorem acc_final (c : Dev nD) (t : Fin cfg0.N) (h7 : t.val % 8 = 7) (p : Fin 32) (q : Fin 512) (E : Fin 8192)
    (hE : E.val = t.val / 8 * 512 + q.val) :
    (outsAt0 m c t.val t.isLt).2 (ix2 p q)
      = update (msgArr m c) (wtArr m c) (maskArr m c) (ratioArr m c) (rowArr m c) (exArr m c) (ix2 p E) := by
  rw [acc_after m c t p q, show t.val % 8 + 1 = 8 by omega, Finset.sum_range, ← update_blocks]
  refine congrArg₂ (· + ·) ?_ (Finset.sum_congr rfl fun s _ => ?_)
  · unfold bias spread
    rw [Entry.first_store_apply]
    refine congrArg (half * ·) (Finset.sum_congr rfl fun v _ => ?_)
    rw [row_at, ratio_at, ex_at m c _ q v E (by show E.val = 8 * (t.val / 8) / 8 * 512 + q.val; omega)]
  · unfold share
    have hs : 8 * (t.val / 8) + s.val < cfg0.N := by have := t.isLt; have := s.isLt; omega
    rw [dif_pos hs]
    refine congrArg (half * ·) (Finset.sum_congr rfl fun j _ => ?_)
    unfold through
    have hJ : (col s j).val = (8 * (t.val / 8) + s.val) % 8 * 1024 + j.val := by
      show s.val * 1024 + j.val = _
      have := s.isLt; omega
    have hE' : E.val = (8 * (t.val / 8) + s.val) / 8 * 512 + q.val := by have := s.isLt; omega
    rw [msg_at m c ⟨8 * (t.val / 8) + s.val, hs⟩ p j (col s j) hJ, mask_at m c ⟨8 * (t.val / 8) + s.val, hs⟩ q j E (col s j) hE' hJ,
      wt_at m c ⟨8 * (t.val / 8) + s.val, hs⟩ q j E (col s j) hE' hJ]

end Cert.KernelIdeal.Fold

end
-- ==== Proof.KernelWhole.lean ====
/-
  From the blocks to the whole result array, and the kernel's run re-stated over it.

  The output window writes a block back only at the last point of each row of eight points; that block is columns
  `(t / 8) · 512 …` of all 32 rows, and what is written is the accumulator, whose entry `(p, q)` is the updated
  message at `(p, (t / 8) · 512 + q)`.  Edge `e` lies in the block written at point `8 · (e / 512) + 7`, so the sixteen
  written blocks cover the array, and the array ends holding the updated messages.
-/
import proofs.«121542_j33414845562978_1_alg».proof.Proof.Fold

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.HalfSum (update)

variable (m : (ℓ : Loc nD τ sig) → Buf (Elt Ideal) ℓ) (ρ : Dev nD → PrngReg)

/-- The result array's contents: the updated messages of the six argument arrays as launched. -/
abbrev result (c : Dev nD) : Buf (Elt Ideal) ((c : Thread nD τ).loc main_v0) :=
  update (Fold.msgArr m c) (Fold.wtArr m c) (Fold.maskArr m c) (Fold.ratioArr m c) (Fold.rowArr m c) (Fold.exArr m c)

/-- What a row's last point writes back is its block of the updated messages. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  obtain ⟨-, -, -, -, -, -, -, -, -, -, -, -, e0, e1⟩ := Blocks.index_facts t
  rw [flushed6, Fold.out_eq_acc m c t h7]
  funext y
  rw [View.read_apply]
  show (outsAt0 m c t.val t.isLt).2 y = result m c (((cfg0.win 6).blk t).view.emb y)
  have hy0 : (y 0).val < 32 := (y 0).isLt
  have hy1 : (y 1).val < 512 := (y 1).isLt
  have ht : t.val < 128 := lt_of_lt_of_eq t.isLt N_0
  refine ((congrArg ((outsAt0 m c t.val t.isLt).2) (eq_ix2 (n0 := 32) (n1 := 512) y)).trans
    (Fold.acc_final m c t h7 (y 0) (y 1) ⟨t.val / 8 * 512 + (y 1).val, by omega⟩ rfl)).trans (congrArg (result m c) ?_)
  funext a
  apply Fin.ext
  match a with
  | ⟨0, _⟩ => show (y 0).val = win0_6.index t 0 * 32 + 1 * (y 0).val; rw [e0]; omega
  | ⟨1, _⟩ => show t.val / 8 * 512 + (y 1).val = win0_6.index t 1 * 512 + 1 * (y 1).val; rw [e1]; omega

/-- Every entry of the result array lies in the block some row's last point writes back. -/
theorem cover (i : S32x8192.Idx) : ∃ t : Fin cfg0.N, (cfg0.win 6).flush t = true ∧ i ∈ ((cfg0.win 6).blk t).view.set := by
  have h0 : (i 0).val < 32 := (i 0).isLt
  have h1 : (i 1).val < 8192 := (i 1).isLt
  have hN : cfg0.N = 128 := N_0
  obtain ⟨t, ht⟩ : ∃ t : Fin cfg0.N, t.val = 8 * ((i 1).val / 512) + 7 := ⟨⟨8 * ((i 1).val / 512) + 7, by omega⟩, rfl⟩
  obtain ⟨-, -, -, -, -, -, -, -, -, -, -, -, e0, e1⟩ := Blocks.index_facts t
  refine ⟨t, (flush0_6 t).mpr (by omega), ?_⟩
  show i ∈ ((View.whole main_v0).slice (win0_6.rect t)).set
  rw [View.set_slice_whole, Rect.mem_set_unit]
  intro a
  match a with
  | ⟨0, _⟩ =>
    show win0_6.index t 0 * 32 ≤ (i 0).val ∧ (i 0).val < win0_6.index t 0 * 32 + 32
    rw [e0]; omega
  | ⟨1, _⟩ =>
    show win0_6.index t 1 * 512 ≤ (i 1).val ∧ (i 1).val < win0_6.index t 1 * 512 + 512
    rw [e1]; omega

/-- After the run the result array holds the updated messages. -/
theorem final_out (c : Dev nD) : (dats m 0 c).arrAt 6 cfg0.N = result m c :=
  (dats m 0 c).arrAt_eq_of_cover 6 (result m c) (flushed_eq m c) cover

/-- The kernel's run: it terminates with the result array at the updated messages and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_out m c), (h c).2⟩) (Value.run_blocks m ρ)

end Cert.KernelIdeal.Whole

end
-- ==== Proof.Whole.lean ====
/-
  The reference, entry by entry, is `update`.

  Its eleven host operations, read at an output index `i = (p, e)`: the last multiplies one half into the sum of two
  `dot_general`s.  The first contracts the weighted ratios `w[0, v] · llr[p, v]` against the TRANSPOSED expander, so it
  reads `ex[e, v]`: the spread term.  The second contracts the incoming messages `inp[p, j]` against the transposed
  product `mask · wt`, so it reads `mask[e, j] · wt[e, j]`: the gathered term.  Nothing but the index bookkeeping of
  the two transposes and the row broadcast stands between the printed program and the specification.
-/
import proofs.«121542_j33414845562978_1_alg».proof.Proof.Gen.ReferenceIdeal.Read
import proofs.«121542_j33414845562978_1_alg».proof.Proof.Spec

noncomputable section

namespace Cert.ReferenceIdeal.Whole

open Cert.ReferenceIdeal Cert.ReferenceIdeal.Gen Cert.ReferenceIdeal.Read Idealize.ShloMosaic Idealize.ShloMosaic.ValueIdx
open Cert.HalfSum (half update spread through)

/-- The weight row is read at `(0, v)` through the broadcast and the first product's left index. -/
theorem weight_idx (i : S32x8192.Idx) (v : Fin 2048) : idx_main_v3 (lidx_main_v6 i v) = ix2 (0 : Fin 1) v :=
  funext fun a => Fin.ext (by match a with | ⟨0, _⟩ => rfl | ⟨1, _⟩ => rfl)

/-- The ratios are read at `(p, v)`. -/
theorem ratio_idx (i : S32x8192.Idx) (v : Fin 2048) : lidx_main_v6 i v = ix2 (i 0) v :=
  funext fun a => Fin.ext (by match a with | ⟨0, _⟩ => rfl | ⟨1, _⟩ => rfl)

/-- The expander is read, through its transpose, at `(e, v)`. -/
theorem expander_idx (i : S32x8192.Idx) (v : Fin 2048) : idx_main_v5 (ridx_main_v6 i v) = ix2 (i 1) v :=
  funext fun a => Fin.ext (by match a with | ⟨0, _⟩ => rfl | ⟨1, _⟩ => rfl)

/-- The incoming messages are read at `(p, j)`. -/
theorem message_idx (i : S32x8192.Idx) (j : Fin 8192) : lidx_main_v2 i j = ix2 (i 0) j :=
  funext fun a => Fin.ext (by match a with | ⟨0, _⟩ => rfl | ⟨1, _⟩ => rfl)

/-- The masked weights are read, through their transpose, at `(e, j)`. -/
theorem weightrow_idx (i : S32x8192.Idx) (j : Fin 8192) : idx_main_v1 (ridx_main_v2 i j) = ix2 (i 1) j :=
  funext fun a => Fin.ext (by match a with | ⟨0, _⟩ => rfl | ⟨1, _⟩ => rfl)

/-- The reference's result is the specification's function of its six arguments. -/
theorem reference_eq_update (x0 : (⟨S32x8192, .f32⟩ : BufTy).Contents (Elt Ideal)) (x1 x2 : (⟨S8192x8192, .f32⟩ : BufTy).Contents (Elt Ideal))
    (x3 : (⟨S32x2048, .f32⟩ : BufTy).Contents (Elt Ideal)) (x4 : (⟨S1x2048, .f32⟩ : BufTy).Contents (Elt Ideal))
    (x5 : (⟨S8192x2048, .f32⟩ : BufTy).Contents (Elt Ideal)) :
    val_main_v9 (F := Ideal) x0 x1 x2 x3 x4 x5 = update x0 x1 x2 x3 x4 x5 := by
  funext i
  rw [val_main_v9_apply, val_main_v8_apply, val_main_cst_apply, val_main_v7_apply, val_main_v6_apply, val_main_v2_apply]
  unfold update spread through
  show half * ((∑ v : Fin 2048, _) + (∑ j : Fin 8192, _)) = half * ((∑ v : Fin 2048, _) + (∑ j : Fin 8192, _))
  refine congrArg (half * ·) (congrArg₂ (· + ·) (Finset.sum_congr rfl fun v _ => ?_) (Finset.sum_congr rfl fun j _ => ?_))
  · rw [val_main_v4_apply, val_main_v3_apply, val_main_v5_apply, weight_idx, ratio_idx, expander_idx]
    rfl
  · rw [val_main_v1_apply, val_main_v0_apply, message_idx, weightrow_idx]
    rfl

end Cert.ReferenceIdeal.Whole

end
-- ==== Proof.lean ====
/-
  One belief-propagation step from variable nodes to check nodes, as a tiled kernel and as plain array code:
  for batch row `p` and edge `e`,

      out[p, e] = 1/2 · ( Σ_v (w[0, v] · llr[p, v]) · ex[e, v]  +  Σ_j inp[p, j] · (mask[e, j] · wt[e, j]) ).

  The reference forms both sums whole, adds them and halves.  The kernel walks a 16 × 8 grid: for each block of 512
  edges it keeps a 32 × 512 accumulator, sets it at the first of eight steps to half the first sum plus half of the
  second sum's first 1024 terms, adds half of the next 1024 terms at each later step, and writes the accumulator out
  after the eighth.  Over the extended reals the two agree because one half is a nonnegative finite factor, which
  distributes over any sum, and because a sum over 8192 terms is the sum of its eight consecutive blocks of 1024
  (Proof/HalfSum.lean, Proof/Spec.lean).  Neither fact needs the inputs to be finite, so the precondition is not used.

  The kernel's side: what each control case leaves in the accumulator and the output block (Proof/Pieces.lean), the two
  stored values read at an entry as plain sums (Proof/Entry.lean), where each block sits in its array
  (Proof/Blocks.lean), the accumulator after each step as a sum over the steps of its row (Proof/Fold.lean), and the
  written blocks assembled into the whole result array (Proof/KernelWhole.lean).  The reference's side: its eleven
  operations read at an entry (Proof/Whole.lean).  Both runs then end with the same function of the six arguments.
  The idealization rewrote nothing, so its soundness conjunct is trivial; the frames are the generated ones, the
  reference's being its run with the result dropped.
-/
import proofs.«121542_j33414845562978_1_alg».proof.Defs
import proofs.«121542_j33414845562978_1_alg».proof.Proof.Gen.Kernel
import proofs.«121542_j33414845562978_1_alg».proof.Proof.Gen.Kernel.Skeleton
import proofs.«121542_j33414845562978_1_alg».proof.Proof.Gen.Kernel.Launch
import proofs.«121542_j33414845562978_1_alg».proof.Proof.Gen.Kernel.Points
import proofs.«121542_j33414845562978_1_alg».proof.Proof.Gen.Kernel.Frame
import proofs.«121542_j33414845562978_1_alg».proof.Proof.Gen.KernelIdeal
import proofs.«121542_j33414845562978_1_alg».proof.Proof.Gen.KernelIdeal.Skeleton
import proofs.«121542_j33414845562978_1_alg».proof.Proof.Gen.KernelIdeal.Launch
import proofs.«121542_j33414845562978_1_alg».proof.Proof.Gen.KernelIdeal.Points
import proofs.«121542_j33414845562978_1_alg».proof.Proof.Gen.KernelIdeal.Frame
import proofs.«121542_j33414845562978_1_alg».proof.Proof.Gen.ReferenceIdeal
import proofs.«121542_j33414845562978_1_alg».proof.Proof.Gen.Pre_finite_inputs
import proofs.«121542_j33414845562978_1_alg».proof.Proof.Gen.KernelIdeal.Value
import proofs.«121542_j33414845562978_1_alg».proof.Proof.Gen.ReferenceIdeal.Run
import proofs.«121542_j33414845562978_1_alg».proof.Proof.Gen.ReferenceIdeal.Read
import proofs.«121542_j33414845562978_1_alg».proof.Proof.KernelWhole
import proofs.«121542_j33414845562978_1_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run, the result forgotten. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the updated messages of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Whole.reference_eq_update,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
